-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x4096x8 : Shape := ⟨3, ![32, 4096, 8]⟩
abbrev S100x128 : Shape := ⟨2, ![100, 128]⟩
abbrev S_ : Shape := ⟨0, ![]⟩

class Facts : Prop where
  bcast_S_S100x128 : S_.BroadcastsInDim S100x128 (![] : Fin 0 → Fin S100x128.rank)
  reducesTo_S100x128_S_d0_1 : S100x128.ReducesTo [0, 1] S_
  h_S_ : 0 < S_.numel
  bcast_S_S32x4096x8 : S_.BroadcastsInDim S32x4096x8 (![] : Fin 0 → Fin S32x4096x8.rank)
  reducesTo_S32x4096x8_S_d0_1_2 : S32x4096x8.ReducesTo [0, 1, 2] S_

variable [Facts]

def fn {F : FTy → Type} [FloatOps F] (main_arg0 : IVec S32x4096x8 32) (main_arg1 : FVec F S100x128 .f32) : IVec S_ 1 :=
  let main_v0 : FVec F S100x128 .f32 := Host.absf main_arg1
  let main_cst : FVec F S_ .f32 := constant S_ .f32 0x7F800000#32
  let main_v1 : FVec F S100x128 .f32 := broadcastInDim S100x128 ![] bcast_S_S100x128 main_cst
  let main_v2 : IVec S100x128 1 := cmpf .olt main_v0 main_v1
  let main_c : IVec S_ 1 := constantI S_ 1 1#1
  let main_v3 : IVec S_ 1 := (fun x v => Host.reduce IntOp.andi x v reducesTo_S100x128_S_d0_1 h_S_) main_v2 main_c
  let main_c_0 : IVec S_ 32 := constantI S_ 32 0#32
  let main_v4 : IVec S32x4096x8 32 := broadcastInDim S32x4096x8 ![] bcast_S_S32x4096x8 main_c_0
  let main_v5 : IVec S32x4096x8 1 := cmpi .sge main_arg0 main_v4
  let main_c_1 : IVec S_ 1 := constantI S_ 1 1#1
  let main_v6 : IVec S_ 1 := (fun x v => Host.reduce IntOp.andi x v reducesTo_S32x4096x8_S_d0_1_2 h_S_) main_v5 main_c_1
  let main_v7 : IVec S_ 1 := andi main_v3 main_v6
  let main_c_2 : IVec S_ 32 := constantI S_ 32 100#32
  let main_v8 : IVec S32x4096x8 32 := broadcastInDim S32x4096x8 ![] bcast_S_S32x4096x8 main_c_2
  let main_v9 : IVec S32x4096x8 1 := cmpi .slt main_arg0 main_v8
  let main_c_3 : IVec S_ 1 := constantI S_ 1 1#1
  let main_v10 : IVec S_ 1 := (fun x v => Host.reduce IntOp.andi x v reducesTo_S32x4096x8_S_d0_1_2 h_S_) main_v9 main_c_3
  let main_v11 : IVec S_ 1 := andi main_v7 main_v10
  main_v11
-- ==== Kernel.lean ====
abbrev S32x4096x8 : Shape := ⟨3, ![32, 4096, 8]⟩
abbrev S100x128 : Shape := ⟨2, ![100, 128]⟩
abbrev S131072x8 : Shape := ⟨2, ![131072, 8]⟩
abbrev S_ : Shape := ⟨0, ![]⟩
abbrev S128x128 : Shape := ⟨2, ![128, 128]⟩
abbrev S1 : Shape := ⟨1, ![1]⟩
abbrev S131072x128 : Shape := ⟨2, ![131072, 128]⟩
abbrev S16384x8 : Shape := ⟨2, ![16384, 8]⟩
abbrev S16384x128 : Shape := ⟨2, ![16384, 128]⟩
abbrev S16384x1 : Shape := ⟨2, ![16384, 1]⟩
abbrev S32x4096x128 : Shape := ⟨3, ![32, 4096, 128]⟩

abbrev nBuf : Space → Nat
  | .hbm => 14
  | .vmem => 6
  | .smem => 0
  | _ => 0

abbrev bufTy : (tb : Table) → Fin (tcTables nBuf tb) → BufTy
  | .hbm, ⟨0, _⟩ => ⟨S32x4096x8, .i32⟩
  | .hbm, ⟨1, _⟩ => ⟨S100x128, .f32⟩
  | .hbm, ⟨2, _⟩ => ⟨S131072x8, .i32⟩
  | .hbm, ⟨3, _⟩ => ⟨S_, .f32⟩
  | .hbm, ⟨4, _⟩ => ⟨S128x128, .f32⟩
  | .hbm, ⟨5, _⟩ => ⟨S_, .i32⟩
  | .hbm, ⟨6, _⟩ => ⟨S1, .i32⟩
  | .hbm, ⟨7, _⟩ => ⟨S128x128, .f32⟩
  | .hbm, ⟨8, _⟩ => ⟨S128x128, .bf16⟩
  | .hbm, ⟨9, _⟩ => ⟨S128x128, .f32⟩
  | .hbm, ⟨10, _⟩ => ⟨S128x128, .f32⟩
  | .hbm, ⟨11, _⟩ => ⟨S128x128, .bf16⟩
  | .hbm, ⟨12, _⟩ => ⟨S131072x128, .f32⟩
  | .hbm, ⟨13, _⟩ => ⟨S32x4096x128, .f32⟩
  | .local _ .vmem, ⟨0, _⟩ => ⟨S16384x8, .i32⟩
  | .local _ .vmem, ⟨1, _⟩ => ⟨S16384x8, .i32⟩
  | .local _ .vmem, ⟨2, _⟩ => ⟨S128x128, .bf16⟩
  | .local _ .vmem, ⟨3, _⟩ => ⟨S128x128, .bf16⟩
  | .local _ .vmem, ⟨4, _⟩ => ⟨S16384x128, .f32⟩
  | .local _ .vmem, ⟨5, _⟩ => ⟨S16384x128, .f32⟩
  | _, _ => ⟨S32x4096x8, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x8 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32x4096x8_S131072x8 : S32x4096x8.ShapeCasts S131072x8
  bcast_S_S128x128 : S_.BroadcastsInDim S128x128 (![] : Fin 0 → Fin S128x128.rank)
  bcast_S_S1 : S_.BroadcastsInDim S1 (![] : Fin 0 → Fin S1.rank)
  bitsLt_bf16_f32 : FTy.bits .bf16 < FTy.bits .f32
  inb_S16384x8_S16384x8_0_0 : ∀ a, (![0, 0] : Fin 2 → Nat) a + S16384x8.size a ≤ S16384x8.size a
  h_S16384x8 : 0 < S16384x8.numel
  shapeCasts_S16384x8_S16384x8 : S16384x8.ShapeCasts S16384x8
  iota_S16384x128_d1_w32 : S16384x128.Iotas .tc 32 [1]
  slices_S16384x8_o0_0_S16384x1 : S16384x8.Slices ![0, 0] S16384x1
  broadcasts_S16384x1_S16384x128 : S16384x1.Broadcasts S16384x128
  natLt_1_32 : 1 < 32
  slices_S16384x8_o0_1_S16384x1 : S16384x8.Slices ![0, 1] S16384x1
  slices_S16384x8_o0_2_S16384x1 : S16384x8.Slices ![0, 2] S16384x1
  slices_S16384x8_o0_3_S16384x1 : S16384x8.Slices ![0, 3] S16384x1
  slices_S16384x8_o0_4_S16384x1 : S16384x8.Slices ![0, 4] S16384x1
  slices_S16384x8_o0_5_S16384x1 : S16384x8.Slices ![0, 5] S16384x1
  slices_S16384x8_o0_6_S16384x1 : S16384x8.Slices ![0, 6] S16384x1
  slices_S16384x8_o0_7_S16384x1 : S16384x8.Slices ![0, 7] S16384x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S16384x128_S16384x128_0_0 : ∀ a, (![0, 0] : Fin 2 → Nat) a + S16384x128.size a ≤ S16384x128.size a
  h_S16384x128 : 0 < S16384x128.numel
  shapeCasts_S131072x128_S32x4096x128 : S131072x128.ShapeCasts S32x4096x128
  scatter_S128x128_S1_S100x128_01_n_0_0_wf : ScatterDims.WF S128x128 S1 S100x128 [0, 1] [] [0] 0
  dot_S16384x128_S128x128_S16384x128_1_0_0_1_n_n_wf : DotDims.WF S16384x128 S128x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x8.size a ≤ S131072x8.size a
  hwx0_0 : ∀ i : grid0.Coords, EltTy.bits .i32 = 32 ∨ (Rect.block (s := S131072x8) S16384x8.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x128.size a ≤ S131072x128.size a
  hwx0_3 : ∀ i : grid0.Coords, EltTy.bits .f32 = 32 ∨ (Rect.block (s := S131072x128) S16384x128.size (cc0_transform_3 i) (hinb0_3 i)).WholeWords (EltTy.packing .f32)

variable [Facts₀]

def scatter_S128x128_S1_S100x128_01_n_0_0 : ScatterDims S128x128 S1 S100x128 where
  updateWindowDims := [0, 1]
  insertedWindowDims := []
  scatterDimsToOperandDims := [0]
  indexVectorDim := 0
  wf := scatter_S128x128_S1_S100x128_01_n_0_0_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf

abbrev win0_0 : Pipeline.Window sig grid0 :=
  Pipeline.Window.ofSpec (Memref.whole main_v0) S16384x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S16384x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S32x4096x8 : Shape := ⟨3, ![32, 4096, 8]⟩
abbrev S100x128 : Shape := ⟨2, ![100, 128]⟩
abbrev S_ : Shape := ⟨0, ![]⟩
abbrev S32x4096x8x1 : Shape := ⟨4, ![32, 4096, 8, 1]⟩
abbrev S32x4096x8x128 : Shape := ⟨4, ![32, 4096, 8, 128]⟩
abbrev S32x4096x128 : Shape := ⟨3, ![32, 4096, 128]⟩

abbrev nBuf : Space → Nat
  | .hbm => 13
  | .vmem => 0
  | .smem => 0
  | _ => 0

abbrev bufTy : (tb : Table) → Fin (tcTables nBuf tb) → BufTy
  | .hbm, ⟨0, _⟩ => ⟨S32x4096x8, .i32⟩
  | .hbm, ⟨1, _⟩ => ⟨S100x128, .f32⟩
  | .hbm, ⟨2, _⟩ => ⟨S_, .i32⟩
  | .hbm, ⟨3, _⟩ => ⟨S32x4096x8, .i32⟩
  | .hbm, ⟨4, _⟩ => ⟨S32x4096x8, .i1⟩
  | .hbm, ⟨5, _⟩ => ⟨S_, .i32⟩
  | .hbm, ⟨6, _⟩ => ⟨S32x4096x8, .i32⟩
  | .hbm, ⟨7, _⟩ => ⟨S32x4096x8, .i32⟩
  | .hbm, ⟨8, _⟩ => ⟨S32x4096x8, .i32⟩
  | .hbm, ⟨9, _⟩ => ⟨S32x4096x8x1, .i32⟩
  | .hbm, ⟨10, _⟩ => ⟨S32x4096x8x128, .f32⟩
  | .hbm, ⟨11, _⟩ => ⟨S_, .f32⟩
  | .hbm, ⟨12, _⟩ => ⟨S32x4096x128, .f32⟩
  | _, _ => ⟨S32x4096x8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S_S32x4096x8 : S_.BroadcastsInDim S32x4096x8 (![] : Fin 0 → Fin S32x4096x8.rank)
  bcast_S32x4096x8_S32x4096x8x1_0_1_2 : S32x4096x8.BroadcastsInDim S32x4096x8x1 (![0, 1, 2] : Fin 3 → Fin S32x4096x8x1.rank)
  reducesTo_S32x4096x8x128_S32x4096x128_d2 : S32x4096x8x128.ReducesTo [2] S32x4096x128
  h_S_ : 0 < S_.numel
  gather_S100x128_S32x4096x8x1_S32x4096x8x128_3_0_n_n_0_3_1128_wf : GatherDims.WF S100x128 S32x4096x8x1 S32x4096x8x128 [3] [0] [] [0] [] 3 ![1, 128]

variable [Facts₀]

def gather_S100x128_S32x4096x8x1_S32x4096x8x128_3_0_n_n_0_3_1128 : GatherDims S100x128 S32x4096x8x1 S32x4096x8x128 where
  offsetDims := [3]
  collapsedSliceDims := [0]
  operandBatchingDims := []
  startIndicesBatchingDims := []
  startIndexMap := [0]
  indexVectorDim := 3
  sliceSizes := ![1, 128]
  wf := gather_S100x128_S32x4096x8x1_S32x4096x8x128_3_0_n_n_0_3_1128_wf

class Facts : Prop extends Facts₀ where

variable [Facts]
-- ==== Proof.PreRead.lean ====
/-
  The precondition, read back.  It is the conjunction of three `all`s: every table entry has absolute value below
  `+∞`; every label is `≥ 0`; every label is `< 100`.  An `all` that came out true met only true elements, a signed
  comparison of words that came out true orders their signed readings, and an extended real whose absolute value is
  below `+∞` is a real number.
-/
import proofs.«402389_j3685081940050_3_alg».proof.Proof.Gen.Pre_finite_inputs
import Idealize.ShloMosaic.Lib.ReduceAll
import Idealize.ShloMosaic.Lib.Affine
import Idealize.ShloMosaic.Lib.ValueIdx
import Idealize.ShloMosaic.PureOps.Ideal.Laws

noncomputable section

namespace Cert.PreRead

open Cert.Pre_finite_inputs Cert.Pre_finite_inputs.Gen Idealize.ShloMosaic

instance : Subsingleton S_.Idx := ⟨fun a b => funext fun d => d.elim0⟩

/-- An extended real whose absolute value is below the pattern of `+∞` is a real. -/
theorem real_of_abs_lt (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => exact absurd h (by simp [Ideal.cmp])
  | top => exact absurd h (by simp [Ideal.cmp])
  | coe r => exact ⟨r, rfl⟩

/-- THE PRECONDITION DECODED. -/
theorem decode (lab : IVec S32x4096x8 32) (tab : FVec Ideal S100x128 .f32)
    (h : Cert.Pre_finite_inputs.fn (F := Ideal) lab tab = fun _ => 1#1) :
    (∀ i, ∃ r : ℝ, tab i = (r : EReal)) ∧ (∀ i, 0 ≤ (lab i).toInt ∧ (lab i).toInt < 100) := by
  have h0 := congrFun h ValueIdx.ix0
  dsimp only [Cert.Pre_finite_inputs.fn] at h0
  obtain ⟨h12, h3⟩ := IntOp.andi_eq_one.mp h0
  obtain ⟨h1, h2⟩ := IntOp.andi_eq_one.mp h12
  have f1 := fun i => Host.reduce_andi_all _ _ _ _ ValueIdx.ix0 h1 i
  have f2 := fun i => Host.reduce_andi_all _ _ _ _ ValueIdx.ix0 h2 i
  have f3 := fun i => Host.reduce_andi_all _ _ _ _ ValueIdx.ix0 h3 i
  refine ⟨fun i => real_of_abs_lt (tab i) (f1 i), fun i => ⟨?_, ?_⟩⟩
  · have := IntOp.cmpi_sge.mp (f2 i)
    exact this
  · have := IntOp.cmpi_slt.mp (f3 i)
    exact this

end Cert.PreRead

end
-- ==== Proof.Spec.lean ====
/-
  The arithmetic at the heart of the certificate, over the extended reals.

  A row of eight labels `lab l` in `[0, 100)` is turned into a vector of 128 counts
  `cnt lab k = #{l | lab l = k}` (accumulated from zero, slot by slot), which is multiplied with a 128-row table whose
  first 100 rows are real numbers (the rows from 100 on are never counted) and with a second 128-row table whose first 100
  rows vanish.  The two products together are the sum of the selected rows: `∑ l, T (lab l)`.  The proof passes through
  the reals: every count is a real, every counted row is a real, and on the reals the identity is an exchange of two
  finite sums followed by the evaluation of an indicator sum.
-/
import Idealize.ShloMosaic.PureOps.Ideal
import Mathlib.Algebra.BigOperators.Fin

noncomputable section

namespace Cert.Spec

/-- The indicator of `a = k` as an extended real. -/
def hot (a k : ℤ) : EReal := if a = k then 1 else 0

theorem hot_coe (a k : ℤ) : hot a k = (((if a = k then 1 else 0 : ℝ)) : EReal) := by
  unfold hot
  split <;> simp

/-- The number of slots of `lab` that hold `k`, accumulated from zero in slot order. -/
def cnt (lab : Fin 8 → ℤ) (k : ℤ) : EReal :=
  0 + hot (lab 0) k + hot (lab 1) k + hot (lab 2) k + hot (lab 3) k + hot (lab 4) k + hot (lab 5) k
    + hot (lab 6) k + hot (lab 7) k

/-- The same number as a real. -/
def cntR (lab : Fin 8 → ℤ) (k : ℤ) : ℝ := ∑ l : Fin 8, (if lab l = k then 1 else 0 : ℝ)

theorem cnt_coe (lab : Fin 8 → ℤ) (k : ℤ) : cnt lab k = ((cntR lab k : ℝ) : EReal) := by
  unfold cnt cntR
  rw [Fin.sum_univ_eight]
  simp only [hot_coe, EReal.coe_add, zero_add]

/-- A count at a value no label takes is zero. -/
theorem cntR_eq_zero (lab : Fin 8 → ℤ) (k : ℤ) (h : ∀ l, lab l ≠ k) : cntR lab k = 0 := by
  unfold cntR
  exact Finset.sum_eq_zero fun l _ => if_neg (h l)

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- On the reals: the counts against a table are the sum of the counted rows. -/
theorem cntR_sum (lab : Fin 8 → ℤ) (hlab : ∀ l, 0 ≤ lab l ∧ lab l < 100) (T : ℕ → ℝ) :
    ∑ k : Fin 128, cntR lab (k.val : ℤ) * (if k.val < 100 then T k.val else 0) = ∑ l : Fin 8, T (lab l).toNat := by
  unfold cntR
  simp only [Finset.sum_mul]
  rw [Finset.sum_comm]
  refine Finset.sum_congr rfl fun l _ => ?_
  obtain ⟨h0, h1⟩ := hlab l
  have hlt : (lab l).toNat < 128 := by omega
  rw [Finset.sum_eq_single (⟨(lab l).toNat, hlt⟩ : Fin 128)]
  · have e : lab l = (((⟨(lab l).toNat, hlt⟩ : Fin 128).val : ℕ) : ℤ) := by
      show lab l = ((lab l).toNat : ℤ)
      omega
    rw [if_pos e]
    have h100 : (⟨(lab l).toNat, hlt⟩ : Fin 128).val < 100 := by show (lab l).toNat < 100; omega
    rw [if_pos h100, one_mul]
  · intro k _ hk
    have : ¬ lab l = (k.val : ℤ) := by
      intro e
      apply hk
      apply Fin.ext
      show k.val = (lab l).toNat
      omega
    rw [if_neg this, zero_mul]
  · intro h; exact absurd (Finset.mem_univ _) h

/-- THE IDENTITY: counts times a table whose counted rows are the reals `T`, plus counts times a table whose counted
    rows vanish, is the sum of the selected rows. -/
theorem counts_dot (lab : Fin 8 → ℤ) (hlab : ∀ l, 0 ≤ lab l ∧ lab l < 100) (hi lo : Fin 128 → EReal) (T : ℕ → ℝ)
    (hhi : ∀ k : Fin 128, k.val < 100 → hi k = (T k.val : EReal)) (hlo : ∀ k : Fin 128, k.val < 100 → lo k = 0) :
    (∑ k : Fin 128, cnt lab (k.val : ℤ) * hi k) + (∑ k : Fin 128, cnt lab (k.val : ℤ) * lo k)
      = ((∑ l : Fin 8, T (lab l).toNat : ℝ) : EReal) := by
  have hz : ∀ k : Fin 128, ¬ k.val < 100 → cnt lab (k.val : ℤ) = 0 := by
    intro k hk
    rw [cnt_coe, cntR_eq_zero lab _ (fun l => by have := hlab l; omega), EReal.coe_zero]
  have h1 : ∀ k : Fin 128, cnt lab (k.val : ℤ) * hi k
      = ((cntR lab (k.val : ℤ) * (if k.val < 100 then T k.val else 0) : ℝ) : EReal) := by
    intro k
    by_cases hk : k.val < 100
    · rw [if_pos hk, cnt_coe, hhi k hk, EReal.coe_mul]
    · rw [if_neg hk, hz k hk, zero_mul, mul_zero, EReal.coe_zero]
  have h2 : ∀ k : Fin 128, cnt lab (k.val : ℤ) * lo k = 0 := by
    intro k
    by_cases hk : k.val < 100
    · rw [hlo k hk, mul_zero]
    · rw [hz k hk, zero_mul]
  rw [Finset.sum_congr rfl (fun k _ => h1 k), Finset.sum_congr rfl (fun k _ => h2 k), Finset.sum_const_zero, add_zero,
    ← coe_sum, cntR_sum lab hlab T]

end Cert.Spec

end
-- ==== Proof.KernelBody.lean ====
/-
  The kernel body's arithmetic, read at one element of the output block.

  From a block of labels `x0 : [16384, 8]` the body builds, for row `n` and vocabulary slot `k < 128`, the count
  `#{l | x0 n l = k}`: each of the eight label columns is converted to a float, broadcast along the vocabulary axis and
  compared for equality with the (converted) lane index, and the eight 0/1 indicators are added up from zero.  At the
  ideal instance a conversion of an integer is that integer and a change of float format is the identity, so the
  indicator is exactly `hot (x0 n l) k` and the accumulated value is `cnt`.  The counts are then multiplied with the two
  128 × 128 tables `x1`, `x2` (two matrix products into zero accumulators) and the products added: at `(n, d)`

      ∑ k, cnt (labels of row n) k * x1 k d  +  ∑ k, cnt (labels of row n) k * x2 k d.
-/
import proofs.«402389_j3685081940050_3_alg».proof.Proof.Gen.KernelIdeal.Skeleton
import proofs.«402389_j3685081940050_3_alg».proof.Proof.Spec
import Idealize.ShloMosaic.Lib.ValueIdx
import Idealize.ShloMosaic.Lib.Pipeline.Value
import Idealize.ShloMosaic.PureOps.Ideal.Laws

noncomputable section

namespace Cert.KernelBody

open Cert.KernelIdeal Cert.KernelIdeal.Gen Idealize.ShloMosaic Idealize.ShloMosaic.ValueIdx Cert.Spec

/-- The eight labels of row `n` of a block, as integers. -/
def labs (x0 : Vec Ideal S16384x8 .i32) (n : Fin 16384) : Fin 8 → ℤ := fun l => (x0 (ix2 n l)).toInt

/-! ## The pieces -/

/-- The converted labels: the label itself. -/
theorem pay3_apply (x0 : Vec Ideal S16384x8 .i32) (n : Fin 16384) (l : Fin 8) :
    k0_pay3 (F := Ideal) x0 (ix2 n l) = (((x0 (ix2 n l)).toInt : ℝ) : EReal) := by
  show (sitofp .bf16 (shapeCast S16384x8 x0 shapeCasts_S16384x8_S16384x8) : FVec Ideal S16384x8 .bf16) (ix2 n l) = _
  rw [shapeCast_self]
  rfl

/-- The converted lane index: the lane's number. -/
theorem pay2_apply (n : Fin 16384) (k : Fin 128) :
    k0_pay2 (F := Ideal) (ix2 n k) = (((k.val : ℤ) : ℝ) : EReal) := by
  show (sitofp .bf16 (iota .tc S16384x128 32 [1] iota_S16384x128_d1_w32) : FVec Ideal S16384x128 .bf16) (ix2 n k) = _
  show (((iota .tc S16384x128 32 [1] iota_S16384x128_d1_w32 (ix2 n k)).toInt : ℝ) : EReal) = _
  rw [iota_single_apply]
  have hk : k.val < 128 := k.isLt
  have e : (BitVec.ofNat 32 ((ix2 n k : S16384x128.Idx) 1).val).toInt = (k.val : ℤ) := by
    show (BitVec.ofNat 32 k.val).toInt = (k.val : ℤ)
    rw [BitVec.toInt_eq_toNat_cond, BitVec.toNat_ofNat]
    have : k.val % 2 ^ 32 = k.val := Nat.mod_eq_of_lt (by omega)
    rw [this, if_pos (by omega)]
  rw [e]

/-- The zero the counts are accumulated from. -/
theorem bf16_zero : Ideal.ofBits .bf16 0x0000#16 = 0 := by simp [Ideal.ofBits, Ideal.ieee]

/-- One indicator: column `o` of the converted labels against the lane index, as a float. -/
theorem slot_apply (x0 : Vec Ideal S16384x8 .i32) (o : ℕ) (ho : o < 8) (hs : S16384x8.Slices ![0, o] S16384x1)
    (n : Fin 16384) (k : Fin 128) :
    (truncf .bf16 (sitofp .f32 (extui 32 (cmpf .oeq
        (broadcastTo S16384x128 (extractStridedSlice S16384x1 ![0, o] (k0_pay3 (F := Ideal) x0) hs) broadcasts_S16384x1_S16384x128)
        (k0_pay2 (F := Ideal))) natLt_1_32)) bitsLt_bf16_f32 : FVec Ideal S16384x128 .bf16) (ix2 n k)
      = hot (x0 (ix2 n ⟨o, ho⟩)).toInt (k.val : ℤ) := by
  have hb : broadcastTo S16384x128 (extractStridedSlice S16384x1 ![0, o] (k0_pay3 (F := Ideal) x0) hs) broadcasts_S16384x1_S16384x128 (ix2 n k)
      = (((x0 (ix2 n ⟨o, ho⟩)).toInt : ℝ) : EReal) := by
    rw [broadcastTo_apply _ broadcasts_S16384x1_S16384x128 (ix2 n k) (ix2 n (0 : Fin 1)) (fun a => by
      match a with
      | ⟨0, _⟩ => rfl
      | ⟨1, _⟩ => rfl)]
    rw [extractStridedSlice_apply ![0, o] _ hs (ix2 n (0 : Fin 1)) (ix2 n ⟨o, ho⟩) (fun a => by
      match a with
      | ⟨0, _⟩ => show n.val = 0 + n.val; omega
      | ⟨1, _⟩ => show o = o + 0; omega)]
    exact pay3_apply x0 n ⟨o, ho⟩
  show (((BitVec.setWidth 32 (Ideal.cmp .oeq
      (broadcastTo S16384x128 (extractStridedSlice S16384x1 ![0, o] (k0_pay3 (F := Ideal) x0) hs) broadcasts_S16384x1_S16384x128 (ix2 n k))
      (k0_pay2 (F := Ideal) (ix2 n k)))).toInt : ℝ) : EReal) = _
  rw [hb, pay2_apply]
  show (((BitVec.setWidth 32 (BitVec.ofBool (decide
      ((((x0 (ix2 n ⟨o, ho⟩)).toInt : ℝ) : EReal) = (((k.val : ℤ) : ℝ) : EReal))))).toInt : ℝ) : EReal) = _
  have t1 : (BitVec.setWidth 32 (BitVec.ofBool true)).toInt = 1 := by decide
  have t0 : (BitVec.setWidth 32 (BitVec.ofBool false)).toInt = 0 := by decide
  unfold hot
  by_cases h : (x0 (ix2 n ⟨o, ho⟩)).toInt = (k.val : ℤ)
  · have he : ((((x0 (ix2 n ⟨o, ho⟩)).toInt : ℝ) : EReal) = (((k.val : ℤ) : ℝ) : EReal)) := by rw [h]
    rw [if_pos h, decide_eq_true he, t1, Int.cast_one, EReal.coe_one]
  · have hne : ¬ ((((x0 (ix2 n ⟨o, ho⟩)).toInt : ℝ) : EReal) = (((k.val : ℤ) : ℝ) : EReal)) := by
      intro e
      exact h (by exact_mod_cast EReal.coe_eq_coe_iff.mp e)
    rw [if_neg h, decide_eq_false hne, t0, Int.cast_zero, EReal.coe_zero]

/-- One indicator column as a vector: label column `o` compared with the lane index. -/
def slot (x0 : Vec Ideal S16384x8 .i32) (o : ℕ) (hs : S16384x8.Slices ![0, o] S16384x1) : FVec Ideal S16384x128 .bf16 :=
  truncf .bf16 (sitofp .f32 (extui 32 (cmpf .oeq
    (broadcastTo S16384x128 (extractStridedSlice S16384x1 ![0, o] (k0_pay3 (F := Ideal) x0) hs) broadcasts_S16384x1_S16384x128)
    (k0_pay2 (F := Ideal))) natLt_1_32)) bitsLt_bf16_f32

theorem slot_eq (x0 : Vec Ideal S16384x8 .i32) (o : ℕ) (ho : o < 8) (hs : S16384x8.Slices ![0, o] S16384x1)
    (n : Fin 16384) (k : Fin 128) : slot x0 o hs (ix2 n k) = hot (x0 (ix2 n ⟨o, ho⟩)).toInt (k.val : ℤ) := by
  unfold slot
  exact slot_apply x0 o ho hs n k

/-! ## The counts -/

/-- The body's running sum after seven label columns, as a sum of indicator vectors from the zero splat. -/
theorem pay4_eq (x0 : Vec Ideal S16384x8 .i32) :
    k0_pay4 (F := Ideal) x0
      = addf (addf (addf (addf (addf (addf (addf (broadcast S16384x128 (Scalar.ofBits (F := Ideal) .bf16 0x0000#16))
          (slot x0 0 slices_S16384x8_o0_0_S16384x1)) (slot x0 1 slices_S16384x8_o0_1_S16384x1))
          (slot x0 2 slices_S16384x8_o0_2_S16384x1)) (slot x0 3 slices_S16384x8_o0_3_S16384x1))
          (slot x0 4 slices_S16384x8_o0_4_S16384x1)) (slot x0 5 slices_S16384x8_o0_5_S16384x1))
          (slot x0 6 slices_S16384x8_o0_6_S16384x1) := rfl

/-- All eight columns: the counts the first matrix operand holds. -/
def counts (x0 : Vec Ideal S16384x8 .i32) : FVec Ideal S16384x128 .bf16 :=
  addf (k0_pay4 (F := Ideal) x0) (slot x0 7 slices_S16384x8_o0_7_S16384x1)

theorem counts_apply (x0 : Vec Ideal S16384x8 .i32) (n : Fin 16384) (k : Fin 128) :
    counts x0 (ix2 n k) = cnt (labs x0 n) (k.val : ℤ) := by
  unfold counts
  rw [pay4_eq]
  simp only [addf_apply, broadcast_apply]
  rw [slot_eq x0 0 (by decide), slot_eq x0 1 (by decide), slot_eq x0 2 (by decide), slot_eq x0 3 (by decide),
    slot_eq x0 4 (by decide), slot_eq x0 5 (by decide), slot_eq x0 6 (by decide), slot_eq x0 7 (by decide)]
  rw [show (Scalar.ofBits (F := Ideal) .bf16 0x0000#16 : EReal) = 0 from bf16_zero]
  rfl

/-! ## The products -/

theorem lhs_0 (j : S16384x128.Idx) (k : dot_S16384x128_S128x128_S16384x128_1_0_0_1_n_n.contr.Idx) :
    (dot_S16384x128_S128x128_S16384x128_1_0_0_1_n_n.lhsIdx j k 0 : ℕ) = j 0 := by
  simp [DotDims.lhsIdx, dot_S16384x128_S128x128_S16384x128_1_0_0_1_n_n]; rfl
theorem lhs_1 (j : S16384x128.Idx) (k : dot_S16384x128_S128x128_S16384x128_1_0_0_1_n_n.contr.Idx) :
    (dot_S16384x128_S128x128_S16384x128_1_0_0_1_n_n.lhsIdx j k 1 : ℕ) = k ⟨0, by decide⟩ := by
  simp [DotDims.lhsIdx, dot_S16384x128_S128x128_S16384x128_1_0_0_1_n_n]; rfl
theorem rhs_0 (j : S16384x128.Idx) (k : dot_S16384x128_S128x128_S16384x128_1_0_0_1_n_n.contr.Idx) :
    (dot_S16384x128_S128x128_S16384x128_1_0_0_1_n_n.rhsIdx j k 0 : ℕ) = k ⟨0, by decide⟩ := by
  simp [DotDims.rhsIdx, dot_S16384x128_S128x128_S16384x128_1_0_0_1_n_n]; rfl
theorem rhs_1 (j : S16384x128.Idx) (k : dot_S16384x128_S128x128_S16384x128_1_0_0_1_n_n.contr.Idx) :
    (dot_S16384x128_S128x128_S16384x128_1_0_0_1_n_n.rhsIdx j k 1 : ℕ) = j 1 := by
  simp [DotDims.rhsIdx, dot_S16384x128_S128x128_S16384x128_1_0_0_1_n_n]; rfl

/-- A product of a [16384, 128] operand with a [128, 128] operand into the zero accumulator, at `(n, d)`: the sum over
    the 128 contracted positions. -/
theorem dot_apply (c : FVec Ideal S16384x128 .bf16) (y : FVec Ideal S128x128 .bf16) (n : Fin 16384) (d : Fin 128) :
    matmul dot_S16384x128_S128x128_S16384x128_1_0_0_1_n_n none c y (constant S16384x128 .f32 0x00000000#32) (ix2 n d)
      = ∑ k : Fin 128, c (ix2 n k) * y (ix2 k d) := by
  show FloatOps.matmul dot_S16384x128_S128x128_S16384x128_1_0_0_1_n_n none c y (constant S16384x128 .f32 0x00000000#32) (ix2 n d) = _
  rw [Ideal.matmul_constant_zero_apply,
    ← Equiv.sum_comp (contrEquiv1 dot_S16384x128_S128x128_S16384x128_1_0_0_1_n_n 128 rfl rfl).symm]
  refine Finset.sum_congr rfl fun k _ => ?_
  congr 2
  · apply Shape.idx_ext₂
    · rw [lhs_0]
    · rw [lhs_1]; exact contrEquiv1_symm_val _ 128 rfl rfl k
  · apply Shape.idx_ext₂
    · rw [rhs_0]; exact contrEquiv1_symm_val _ 128 rfl rfl k
    · rw [rhs_1]

/-- The body's stored value is the sum of the two products of the counts. -/
theorem pay1_eq (x0 : Vec Ideal S16384x8 .i32) (x1 x2 : Vec Ideal S128x128 .bf16) :
    k0_pay1 (k0_pay2 (F := Ideal)) (k0_pay4 x0) (k0_pay5 x0) x1 x2
      = addf (matmul dot_S16384x128_S128x128_S16384x128_1_0_0_1_n_n none (counts x0)
                (shapeCast S128x128 x1 shapeCasts_S128x128_S128x128 : FVec Ideal S128x128 .bf16) (constant S16384x128 .f32 0x00000000#32))
             (matmul dot_S16384x128_S128x128_S16384x128_1_0_0_1_n_n none (counts x0)
                (shapeCast S128x128 x2 shapeCasts_S128x128_S128x128 : FVec Ideal S128x128 .bf16) (constant S16384x128 .f32 0x00000000#32)) := rfl

/-- THE BODY AT AN ELEMENT: counts against the first table plus counts against the second. -/
theorem pay1_apply (x0 : Vec Ideal S16384x8 .i32) (x1 x2 : Vec Ideal S128x128 .bf16) (n : Fin 16384) (d : Fin 128) :
    k0_pay1 (k0_pay2 (F := Ideal)) (k0_pay4 x0) (k0_pay5 x0) x1 x2 (ix2 n d)
      = (∑ k : Fin 128, cnt (labs x0 n) (k.val : ℤ) * x1 (ix2 k d))
        + (∑ k : Fin 128, cnt (labs x0 n) (k.val : ℤ) * x2 (ix2 k d)) := by
  rw [pay1_eq, shapeCast_self, shapeCast_self, addf_apply, dot_apply, dot_apply]
  simp only [counts_apply]

end Cert.KernelBody

end
-- ==== Proof.LibScatter.lean ====
/-
  A general fact about the host's `stablehlo.scatter` whose body returns the update (`x.at[…].set(v)`): the model
  folds over the update positions in row-major order, each position that lands inside the operand overwriting one
  element.  An element that EXACTLY ONE update position lands on ends holding that update, whatever the operand held
  and whatever the other positions did.
-/
import Idealize.ShloMosaic.PureOps.ShapeOps

namespace Cert.LibScatter

open Idealize.ShloMosaic

variable {s si u : Shape} {w : Nat} {α : Type}

/-- Folding the scatter's step over update positions none of which lands on `i` leaves the element at `i` alone. -/
theorem foldl_step_of_not_hit (d : ScatterDims s si u) (f : α → α → α) (idx : IVec si w) (upd : u.Idx → α) (i : s.Idx) :
    ∀ (l : List (Fin u.numel)) (x : s.Idx → α),
      (∀ n ∈ l, d.resultIdx? (u.rowMajor.symm n) idx ≠ some i) →
      (l.foldl (fun r n =>
        match d.resultIdx? (u.rowMajor.symm n) idx with
        | some i₀ => fun i' => if i' = i₀ then f (r i₀) (upd (u.rowMajor.symm n)) else r i'
        | none => r) x) i = x i := by
  intro l
  induction l with
  | nil => intro x _; rfl
  | cons n l ih =>
    intro x h
    rw [List.foldl_cons, ih _ (fun n' hn' => h n' (List.mem_cons_of_mem _ hn'))]
    have hn := h n (List.mem_cons_self ..)
    generalize d.resultIdx? (u.rowMajor.symm n) idx = o at hn
    cases o with
    | none => rfl
    | some i₀ => exact if_neg (fun e => hn (by rw [e]))

/-- THE READ: where exactly one update position `j` lands on `i`, a scatter that sets leaves `upd j` at `i`. -/
theorem scatter_set_apply (d : ScatterDims s si u) (x : s.Idx → α) (idx : IVec si w) (upd : u.Idx → α) (i : s.Idx)
    (j : u.Idx) (hj : d.resultIdx? j idx = some i) (huniq : ∀ j', d.resultIdx? j' idx = some i → j' = j) :
    Host.scatter d (fun _ b => b) x idx upd i = upd j := by
  unfold Host.scatter
  obtain ⟨l₁, l₂, hl⟩ := List.append_of_mem (List.mem_finRange (u.rowMajor j))
  have hnd : (List.finRange u.numel).Nodup := List.nodup_finRange _
  rw [hl] at hnd
  have hnot : u.rowMajor j ∉ l₂ := (List.nodup_cons.mp hnd.of_append_right).1
  rw [hl, List.foldl_append, List.foldl_cons]
  refine (foldl_step_of_not_hit d (fun _ b => b) idx upd i l₂ _ (fun n' hn' he => by
    have e := huniq _ he
    apply hnot
    rw [← e, Equiv.apply_symm_apply]
    exact hn')).trans ?_
  simp only [Equiv.symm_apply_apply, hj]
  exact if_pos trivial

end Cert.LibScatter
-- ==== Proof.PadRead.lean ====
/-
  The kernel's wrapper pads the 100-row table to 128 rows: it scatters the table, as ONE window of 100 × 128
  elements at the start index `0`, into a 128 × 128 array of zeros.  Update position `(r, d)` lands on element
  `(0 + r, d)` of the operand, always inside it, and distinct positions land on distinct elements; so every row
  `k < 100` of the padded array is row `k` of the table.  (The rows from 100 on keep the zeros; nothing below needs them.)
-/
import proofs.«402389_j3685081940050_3_alg».proof.Proof.Gen.KernelIdeal
import proofs.«402389_j3685081940050_3_alg».proof.Proof.LibScatter
import Idealize.ShloMosaic.Lib.ValueIdx

namespace Cert.PadRead

open Cert.KernelIdeal Cert.KernelIdeal.Gen Idealize.ShloMosaic Idealize.ShloMosaic.ValueIdx

/-- The window starts at the scatter index, which is zero, on the scattered axis and at zero on the other. -/
theorem start_eq (j : S100x128.Idx) (idx : IVec S1 32) (h0 : ∀ y, idx y = 0#32) (a : Fin 2) :
    scatter_S128x128_S1_S100x128_01_n_0_0.start j idx a = 0 := by
  unfold ScatterDims.start
  split
  · rw [h0]; rfl
  · rfl

/-- The window coordinate on each operand axis is the update position's coordinate on that axis. -/
theorem window_eq (j : S100x128.Idx) (a : Fin 2) :
    scatter_S128x128_S1_S100x128_01_n_0_0.window j a = (j a).val := by
  match a with
  | ⟨0, _⟩ => rfl
  | ⟨1, _⟩ => rfl

theorem lt_size (j : S100x128.Idx) (a : Fin 2) : (j a).val < S128x128.size a := by
  match a with
  | ⟨0, _⟩ => have : (j 0).val < 100 := (j 0).isLt; show (j 0).val < 128; omega
  | ⟨1, _⟩ => exact (j 1).isLt

/-- Where update position `j` lands: on the element with the same coordinates. -/
theorem result_eq (j : S100x128.Idx) (idx : IVec S1 32) (h0 : ∀ y, idx y = 0#32) :
    scatter_S128x128_S1_S100x128_01_n_0_0.resultIdx? j idx = some (fun a => ⟨(j a).val, lt_size j a⟩) := by
  have hsw : ∀ a : Fin 2, scatter_S128x128_S1_S100x128_01_n_0_0.start j idx a
      + (scatter_S128x128_S1_S100x128_01_n_0_0.window j a : ℤ) = ((j a).val : ℤ) := fun a => by
    rw [start_eq j idx h0 a, window_eq j a, zero_add]
  unfold ScatterDims.resultIdx?
  rw [dif_pos (fun a => by
    rw [hsw a]
    exact ⟨Int.natCast_nonneg _, by exact_mod_cast lt_size j a⟩)]
  congr 1
  funext a
  apply Fin.ext
  show (scatter_S128x128_S1_S100x128_01_n_0_0.start j idx a
      + (scatter_S128x128_S1_S100x128_01_n_0_0.window j a : ℤ)).toNat = (j a).val
  rw [hsw a, Int.toNat_natCast]

/-- THE PADDED TABLE at a row below 100 is the table's row. -/
theorem pad_apply {α : Type} (x : S128x128.Idx → α) (idx : IVec S1 32) (h0 : ∀ y, idx y = 0#32) (upd : S100x128.Idx → α)
    (k : Fin 128) (hk : k.val < 100) (dd : Fin 128) :
    Host.scatter scatter_S128x128_S1_S100x128_01_n_0_0 (fun _ b => b) x idx upd (ix2 k dd) = upd (ix2 ⟨k.val, hk⟩ dd) := by
  refine Cert.LibScatter.scatter_set_apply scatter_S128x128_S1_S100x128_01_n_0_0 x idx upd (ix2 k dd) (ix2 ⟨k.val, hk⟩ dd) ?_ ?_
  · rw [result_eq _ idx h0]
    congr 1
    funext a
    match a with
    | ⟨0, _⟩ => rfl
    | ⟨1, _⟩ => rfl
  · intro j' hj'
    rw [result_eq j' idx h0] at hj'
    have e := Option.some.inj hj'
    funext a
    apply Fin.ext
    match a with
    | ⟨0, h0'⟩ => have h := congrArg Fin.val (congrFun e ⟨0, h0'⟩); exact h
    | ⟨1, h1'⟩ => have h := congrArg Fin.val (congrFun e ⟨1, h1'⟩); exact h

end Cert.PadRead
-- ==== Proof.KernelValue.lean ====
/-
  The kernel program's result as one function of its two arguments, at the ideal instance.

  The pallas_call runs over eight grid points; point `t` is handed rows `[16384 t, 16384 (t + 1))` of the re-laid labels
  (`[131072, 8]`) and both 128 × 128 tables whole, and writes rows `[16384 t, 16384 (t + 1))` of the `[131072, 128]` result.
  The body's value at a block element is a function of the block's row of labels and of the tables' column
  (`KernelBody.pay1_apply`), so every point writes the restriction to its block of ONE whole-array function `KG`; the
  eight blocks tile the result, so after the run the result array IS `KG` of the arrays the region found.  Those are
  host-made: the labels re-laid from `[32, 4096, 8]`, the table zero-padded to 128 rows (`hi`), and the padded table
  minus itself (`lo`); the result is re-laid to `[32, 4096, 128]` after the region.
-/
import proofs.«402389_j3685081940050_3_alg».proof.Proof.Gen.KernelIdeal.Frame
import proofs.«402389_j3685081940050_3_alg».proof.Proof.KernelBody
import proofs.«402389_j3685081940050_3_alg».proof.Proof.PadRead
import Idealize.ShloMosaic.Lib.Pipeline.Value
import Idealize.ShloMosaic.Lib.StableHlo.Run
import Idealize.ShloMosaic.Lib.Tactic

noncomputable section

namespace Cert.KernelValue

open Cert.KernelIdeal Cert.KernelIdeal.Gen Idealize.ShloMosaic Idealize.ShloMosaic.TcCoe Idealize.SL.Sem
open Idealize.ShloMosaic.StableHlo Idealize.ShloMosaic.ValueIdx Cert.Spec Cert.KernelBody
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## One function for the whole result array -/

/-- Row `i 0`'s label counts against column `i 1` of the two tables. -/
def KG (A0 : S131072x8.Idx → BitVec 32) (H L : S128x128.Idx → EReal) : S131072x128.Idx → EReal := fun i =>
  (∑ k : Fin 128, cnt (fun l : Fin 8 => (A0 (ix2 (i 0) l)).toInt) (k.val : ℤ) * H (ix2 k (i 1)))
    + (∑ k : Fin 128, cnt (fun l : Fin 8 => (A0 (ix2 (i 0) l)).toInt) (k.val : ℤ) * L (ix2 k (i 1)))

/-- The body's value at element `j` of a block whose label rows are rows `16384 T + ·` of `A0` and whose tables are `H`
    and `L` is `KG` at the element's place `i` in the array. -/
theorem pay_block (x0 : Vec Ideal S16384x8 .i32) (x1 x2 : Vec Ideal S128x128 .bf16)
    (A0 : S131072x8.Idx → BitVec 32) (H L : S128x128.Idx → EReal) (T : ℕ)
    (h0 : ∀ (n : Fin 16384) (l : Fin 8) (N : Fin 131072), N.val = 16384 * T + n.val → x0 (ix2 n l) = A0 (ix2 N l))
    (h1 : ∀ k d : Fin 128, x1 (ix2 k d) = H (ix2 k d)) (h2 : ∀ k d : Fin 128, x2 (ix2 k d) = L (ix2 k d))
    (j : S16384x128.Idx) (i : S131072x128.Idx) (hi0 : (i 0).val = 16384 * T + (j 0).val) (hi1 : (i 1).val = (j 1).val) :
    k0_pay1 (k0_pay2 (F := Ideal)) (k0_pay4 x0) (k0_pay5 x0) x1 x2 j = KG A0 H L i := by
  obtain ⟨n, d, rfl⟩ : ∃ (n : Fin 16384) (d : Fin 128), j = ix2 n d := ⟨j 0, j 1, eq_ix2 j⟩
  rw [pay1_apply]
  unfold KG
  have hl : labs x0 n = fun l : Fin 8 => (A0 (ix2 (i 0) l)).toInt := by
    funext l
    unfold labs
    rw [h0 n l (i 0) hi0]
  have hd : (i 1 : Fin 128) = d := Fin.ext hi1
  rw [hl, hd]
  simp only [h1, h2]

/-! ## The windows' blocks -/

/-- The printed index maps over the grid: the label and result windows move one block per point along the rows, the
    two table windows stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s label block is rows `16384 t + ·` of the re-laid labels. -/
theorem iblk0_apply (c : Dev nD) (t : Fin cfg0.N) (n : Fin 16384) (l : Fin 8) (N : Fin 131072)
    (hN : N.val = 16384 * t.val + n.val) :
    (iblk m c 0 t : Vec Ideal S16384x8 .i32) (ix2 n l) = (V m c main_v0 : S131072x8.Idx → BitVec 32) (ix2 N l) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 16384 + 1 * n.val = N.val; rw [e0, hN]; omega
  | ⟨1, _⟩ => show win0_0.index t (1 : Fin 2) * 8 + 1 * l.val = l.val; rw [e1]; omega

/-- Every point's first table block is the whole first table. -/
theorem iblk1_apply (c : Dev nD) (t : Fin cfg0.N) (k d : Fin 128) :
    (iblk m c 1 t : Vec Ideal S128x128 .bf16) (ix2 k d) = (V m c main_v4 : S128x128.Idx → EReal) (ix2 k d) := by
  obtain ⟨-, -, e2, e3, -⟩ := idx_facts t
  unfold iblk
  rw [View.read_apply]
  show V m c main_v4 _ = V m c main_v4 _
  congr 1
  funext a
  apply Fin.ext
  match a with
  | ⟨0, _⟩ => show win0_1.index t (0 : Fin 2) * 128 + 1 * k.val = k.val; rw [e2]; omega
  | ⟨1, _⟩ => show win0_1.index t (1 : Fin 2) * 128 + 1 * d.val = d.val; rw [e3]; omega

/-- Every point's second table block is the whole second table. -/
theorem iblk2_apply (c : Dev nD) (t : Fin cfg0.N) (k d : Fin 128) :
    (iblk m c 2 t : Vec Ideal S128x128 .bf16) (ix2 k d) = (V m c main_v7 : S128x128.Idx → EReal) (ix2 k d) := by
  obtain ⟨-, -, -, -, e4, e5, -⟩ := idx_facts t
  unfold iblk
  rw [View.read_apply]
  show V m c main_v7 _ = V m c main_v7 _
  congr 1
  funext a
  apply Fin.ext
  match a with
  | ⟨0, _⟩ => show win0_2.index t (0 : Fin 2) * 128 + 1 * k.val = k.val; rw [e4]; omega
  | ⟨1, _⟩ => show win0_2.index t (1 : Fin 2) * 128 + 1 * d.val = d.val; rw [e5]; omega

/-! ## What a point writes back, and the array after the run -/

/-- WHAT POINT `t` WRITES BACK is block `t` of `KG` of the arrays the region found. -/
theorem flushed_eq (c : Dev nD) (t : Fin cfg0.N) :
    (dats m 0 c).flushed 3 t
      = ((cfg0.win 3).blk t).view.read (Elt Ideal) (KG (V m c main_v0) (V m c main_v4) (V m c main_v7)) := by
  show (cfg0.win 3).cut (grid0.coords t) ((dats m 0 c).after 3 t) = _
  rw [after0_3]
  unfold out0_3
  rw [View.canon_unit_zero hz]
  simp only [View.ld_unit_zero (S := S16384x8) hz, View.ld_unit_zero (S := S128x128) hz]
  obtain ⟨-, -, -, -, -, -, e6, e7⟩ := idx_facts t
  funext j
  refine pay_block (iblk m c 0 t) (iblk m c 1 t) (iblk m c 2 t) (V m c main_v0) (V m c main_v4) (V m c main_v7) t.val
    (fun n l N hN => iblk0_apply m c t n l N hN) (fun k d => iblk1_apply m c t k d) (fun k d => iblk2_apply m c t k d)
    j (((cfg0.win 3).blk t).view.emb j) ?_ ?_
  · show win0_3.index t (0 : Fin 2) * 16384 + 1 * (j 0).val = 16384 * t.val + (j 0).val
    rw [e6]; omega
  · show win0_3.index t (1 : Fin 2) * 128 + 1 * (j 1).val = (j 1).val
    rw [e7]; omega

/-- An index of the result array is in point `t`'s block iff each coordinate is in the block's range on its axis. -/
theorem mem_blk (t : Fin cfg0.N) (i : S131072x128.Idx) :
    i ∈ ((cfg0.win 3).blk t).view.set ↔ ∀ a : Fin 2, win0_3.index t a * S16384x128.size a ≤ (i a).val
      ∧ (i a).val < win0_3.index t a * S16384x128.size a + S16384x128.size a := by
  show i ∈ ((View.whole main_v8).slice (win0_3.rect t)).set ↔ _
  rw [View.set_slice_whole, Rect.mem_set_unit]
  exact Iff.rfl

/-- THE RESULT ARRAY after the run: `KG` everywhere — row `r` lies in the block of point `r / 16384`. -/
theorem final (c : Dev nD) :
    (dats m 0 c).arrAt 3 cfg0.N = KG (V m c main_v0) (V m c main_v4) (V m c main_v7) :=
  (dats m 0 c).arrAt_eq_of_cover 3 _ (fun t _ => flushed_eq m c t) fun i => by
    have hi0 : (i 0).val < 131072 := (i 0).isLt
    have hi1 : (i 1).val < 128 := (i 1).isLt
    have hN : cfg0.N = 8 := N_0
    have hlt : (i 0).val / 16384 < cfg0.N := by rw [hN]; omega
    refine ⟨⟨(i 0).val / 16384, hlt⟩, flush0_3 _, ?_⟩
    rw [mem_blk]
    obtain ⟨-, -, -, -, -, -, e6, e7⟩ := idx_facts ⟨(i 0).val / 16384, hlt⟩
    intro a
    match a with
    | ⟨0, _⟩ =>
      show win0_3.index ⟨(i 0).val / 16384, hlt⟩ (0 : Fin 2) * 16384 ≤ (i 0).val
        ∧ (i 0).val < win0_3.index ⟨(i 0).val / 16384, hlt⟩ (0 : Fin 2) * 16384 + 16384
      rw [e6]
      show (i 0).val / 16384 * 16384 ≤ (i 0).val ∧ (i 0).val < (i 0).val / 16384 * 16384 + 16384
      omega
    | ⟨1, _⟩ =>
      show win0_3.index ⟨(i 0).val / 16384, hlt⟩ (1 : Fin 2) * 128 ≤ (i 1).val
        ∧ (i 1).val < win0_3.index ⟨(i 0).val / 16384, hlt⟩ (1 : Fin 2) * 128 + 128
      rw [e7]
      omega

/-! ## The host operations around the region -/

/-- The labels re-laid as `[131072, 8]`. -/
def relaid (lab : S32x4096x8.Idx → BitVec 32) : S131072x8.Idx → BitVec 32 :=
  shapeCast S131072x8 lab shapeCasts_S32x4096x8_S131072x8

/-- The table zero-padded to 128 rows. -/
def padded (tab : S100x128.Idx → EReal) : S128x128.Idx → EReal :=
  Host.scatter scatter_S128x128_S1_S100x128_01_n_0_0 (fun _ b => b)
    (broadcastInDim S128x128 ![] bcast_S_S128x128 (constant (F := Ideal) S_ .f32 0x00000000#32))
    (broadcastInDim S1 ![] bcast_S_S1 (constantI S_ 32 0#32)) tab

/-- The first table operand: the padded table (in the narrower format, which at the ideal instance changes nothing). -/
def hiT (tab : S100x128.Idx → EReal) : S128x128.Idx → EReal :=
  (truncf .bf16 (padded tab : FVec Ideal S128x128 .f32) bitsLt_bf16_f32 : FVec Ideal S128x128 .bf16)

/-- The second table operand: the padded table minus its narrowed-and-widened self. -/
def loT (tab : S100x128.Idx → EReal) : S128x128.Idx → EReal :=
  (truncf .bf16 (subf (padded tab : FVec Ideal S128x128 .f32)
      (extf .f32 (truncf .bf16 (padded tab : FVec Ideal S128x128 .f32) bitsLt_bf16_f32 : FVec Ideal S128x128 .bf16) bitsLt_bf16_f32))
    bitsLt_bf16_f32 : FVec Ideal S128x128 .bf16)

/-- THE RESULT of the kernel program as a function of its two arguments. -/
def result (lab : S32x4096x8.Idx → BitVec 32) (tab : S100x128.Idx → EReal) : S32x4096x128.Idx → EReal :=
  shapeCast S32x4096x128 (KG (relaid lab) (hiT tab) (loT tab)) shapeCasts_S131072x128_S32x4096x128

theorem v0_eq (c : Dev nD) :
    (V m c main_v0 : S131072x8.Idx → BitVec 32) = relaid (m ((c : Thread nD τ).loc main_arg0)) := by
  show StableHlo.after hostOps0 (fun b => m (c, b)) (Proc.devRef .tc main_v0) = _
  after_results
  rfl

theorem v4_eq (c : Dev nD) :
    (V m c main_v4 : S128x128.Idx → EReal) = hiT (m ((c : Thread nD τ).loc main_arg1)) := by
  show StableHlo.after hostOps0 (fun b => m (c, b)) (Proc.devRef .tc main_v4) = _
  after_results
  rfl

theorem v7_eq (c : Dev nD) :
    (V m c main_v7 : S128x128.Idx → EReal) = loT (m ((c : Thread nD τ).loc main_arg1)) := by
  show StableHlo.after hostOps0 (fun b => m (c, b)) (Proc.devRef .tc main_v7) = _
  after_results
  rfl

/-- The region's result array as the lines after the region find it. -/
theorem v8_eq (c : Dev nD) :
    Pipeline.withArrays (cfgs 0).spec c (V0 m c) (fun w => (dats m 0 c).arrAt w (cfgs 0).N) (Proc.devRef .tc main_v8)
      = KG (relaid (m ((c : Thread nD τ).loc main_arg0))) (hiT (m ((c : Thread nD τ).loc main_arg1)))
          (loT (m ((c : Thread nD τ).loc main_arg1))) := by
  refine (Pipeline.withArrays_arr spec0 launch0.win.arr_inj c _ _ 3).trans ?_
  rw [final, v0_eq, v4_eq, v7_eq]

/-- The program's result after the lines that follow the region. -/
theorem tail_eq (c : Dev nD) :
    (Pipeline.afterTail₀ cfgs (dats m) 0 (V0 m) [hostOps1] c main_v9 : S32x4096x128.Idx → EReal)
      = result (m ((c : Thread nD τ).loc main_arg0)) (m ((c : Thread nD τ).loc main_arg1)) := by
  unfold Pipeline.afterTail₀
  show StableHlo.after hostOps1 _ (Proc.devRef .tc main_v9) = _
  after_results
  unfold result
  rw [← v8_eq m c]
  rfl

/-! ## The run, read -/

/-- Every weakly fair execution of the kernel program ends with its result at `result` of the arguments, the arguments
    unchanged. -/
theorem run : θ_run defs (onTc (τ := τ) (main (F := Ideal))) ⟨m, fun _ => 0, ρ⟩ fun r => ∀ c : Dev nD,
      r.2.mem ((c : Thread nD τ).loc main_v9)
        = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v9 (Pipeline.mem_restRefs_of main_v9 (by decide) (by decide))).trans (tail_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c)⟩)
    (run_main m ρ)

end Cert.KernelValue

end
-- ==== Proof.RefSide.lean ====
/-
  The reference program at the ideal instance: a gather of table rows at the (normalised) labels followed by a sum
  over the eight label slots.  The gather reads, at `(b, s, l, d)`, the table at the row its start index names — read
  signed and clamped into `[0, 99]` — and at column `d`.  The start index is the label, plus 100 where the label is
  negative.  Under the label range `0 ≤ label < 100` the normalisation is the identity and the clamp does not bind, so
  the result at `(b, s, d)` is `0 + ∑ l, table (label b s l) d`.
-/
import proofs.«402389_j3685081940050_3_alg».proof.Proof.Gen.ReferenceIdeal.Run
import proofs.«402389_j3685081940050_3_alg».proof.Proof.Gen.ReferenceIdeal.Read
import Idealize.ShloMosaic.Lib.ValueIdx
import Idealize.ShloMosaic.Lib.Affine

noncomputable section

namespace Cert.RefSide

open Cert.ReferenceIdeal Cert.ReferenceIdeal.Gen Cert.ReferenceIdeal.Read Idealize.ShloMosaic Idealize.ShloMosaic.ValueIdx

/-- THE GATHER READ AT `(b, s, l, d)`: the operand's row at the clamped start index, column `d`. -/
theorem gather_apply {α : Type} (x : S100x128.Idx → α) (idx : IVec S32x4096x8x1 32)
    (b : Fin 32) (s : Fin 4096) (l : Fin 8) (d : Fin 128) :
    Host.gather gather_S100x128_S32x4096x8x1_S32x4096x8x128_3_0_n_n_0_3_1128 x idx (ix4 b s l d)
      = x (ix2 ⟨min (idx (ix4 b s l (0 : Fin 1))).toInt.toNat 99, by omega⟩ d) := by
  unfold Host.gather
  congr 1
  funext a
  apply Fin.ext
  show gather_S100x128_S32x4096x8x1_S32x4096x8x128_3_0_n_n_0_3_1128.start (ix4 b s l d) idx a
      + gather_S100x128_S32x4096x8x1_S32x4096x8x128_3_0_n_n_0_3_1128.batchCoord (ix4 b s l d) a
      + gather_S100x128_S32x4096x8x1_S32x4096x8x128_3_0_n_n_0_3_1128.offCoord (ix4 b s l d) a = _
  rw [GatherDims.batchCoord_eq_zero _ _ _ List.not_mem_nil]
  match a with
  | ⟨0, h0⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, h0⟩ : Fin 2) ∈ gather_S100x128_S32x4096x8x1_S32x4096x8x128_3_0_n_n_0_3_1128.startIndexMap from
      List.mem_singleton.mpr rfl)]
    have hsi : gather_S100x128_S32x4096x8x1_S32x4096x8x128_3_0_n_n_0_3_1128.siIdx (ix4 b s l d)
        ⟨List.idxOf (⟨0, h0⟩ : Fin 2) gather_S100x128_S32x4096x8x1_S32x4096x8x128_3_0_n_n_0_3_1128.startIndexMap,
          List.idxOf_lt_length_iff.2 (List.mem_singleton.mpr rfl)⟩ = ix4 b s l (0 : Fin 1) := by
      funext e; refine Fin.ext ?_
      match e with
      | ⟨0, _⟩ => rfl
      | ⟨1, _⟩ => rfl
      | ⟨2, _⟩ => rfl
      | ⟨3, _⟩ => rfl
    rw [hsi]
    rfl
  | ⟨1, h1⟩ =>
    have hs : gather_S100x128_S32x4096x8x1_S32x4096x8x128_3_0_n_n_0_3_1128.start (ix4 b s l d) idx ⟨1, h1⟩ = 0 := by
      unfold GatherDims.start
      exact dif_neg (fun h => by
        have e := congrArg Fin.val (List.mem_singleton.mp h)
        exact Nat.one_ne_zero e)
    rw [hs]
    simp only [Nat.add_zero, Nat.zero_add]
    rfl

/-- Under the label range the start index the gather reads at `(b, s, l)` is the label. -/
theorem start_index (x0 : IVec S32x4096x8 32) (hx0 : ∀ i, 0 ≤ (x0 i).toInt ∧ (x0 i).toInt < 100)
    (b : Fin 32) (s : Fin 4096) (l : Fin 8) :
    val_main_v5 (F := Ideal) x0 (ix4 b s l (0 : Fin 1)) = x0 (ix3 b s l) := by
  rw [val_main_v5_apply, val_main_v4_apply, val_main_v1_apply]
  have hi : idx_main_v5 (ix4 b s l (0 : Fin 1)) = ix3 b s l := by
    funext a; apply Fin.ext
    match a with
    | ⟨0, _⟩ => rfl
    | ⟨1, _⟩ => rfl
    | ⟨2, _⟩ => rfl
  rw [hi]
  have hnot : ¬ IntOp.cmpi .slt (x0 (ix3 b s l)) (val_main_v0 (F := Ideal) (ix3 b s l)) = 1#1 := by
    intro h
    have := IntOp.cmpi_slt.mp h
    have h0 : (val_main_v0 (F := Ideal) (ix3 b s l)).toInt = 0 := by
      rw [val_main_v0_apply, val_main_c_apply]; rfl
    rw [h0] at this
    have := (hx0 (ix3 b s l)).1
    omega
  rw [eq_zero_of_ne_one hnot, select_zero]

/-- THE REFERENCE AT `(b, s, d)`: zero plus the sum over the eight slots of the labelled rows at column `d`. -/
theorem ref_apply (x0 : IVec S32x4096x8 32) (x1 : FVec Ideal S100x128 .f32)
    (hx0 : ∀ i, 0 ≤ (x0 i).toInt ∧ (x0 i).toInt < 100) (b : Fin 32) (s : Fin 4096) (d : Fin 128) :
    val_main_v7 (F := Ideal) x0 x1 (ix3 b s d)
      = 0 + ∑ l : Fin 8, x1 (ix2 ⟨(x0 (ix3 b s l)).toInt.toNat, by have := hx0 (ix3 b s l); omega⟩ d) := by
  rw [val_main_v7_apply, val_main_cst_apply]
  refine congrArg₂ (· + ·) Ideal.ofBits_zero_f32 (Finset.sum_congr rfl fun l _ => ?_)
  have hi : idx_main_v7 (ix3 b s d) l = ix4 b s l d := by
    funext a; apply Fin.ext
    match a with
    | ⟨0, _⟩ => rfl
    | ⟨1, _⟩ => rfl
    | ⟨2, _⟩ => rfl
    | ⟨3, _⟩ => rfl
  rw [hi]
  unfold val_main_v6
  rw [gather_apply]
  congr 1
  apply Shape.idx_ext₂
  · show min (val_main_v5 (F := Ideal) x0 (ix4 b s l (0 : Fin 1))).toInt.toNat 99 = (x0 (ix3 b s l)).toInt.toNat
    rw [start_index x0 hx0]
    have := hx0 (ix3 b s l)
    omega
  · rfl

end Cert.RefSide

end
-- ==== Proof.Bridge.lean ====
/-
  The two programs compute one function.

  At `(b, s, d)` the kernel program holds, for row `N = 4096 b + s` of the re-laid labels, the label counts against
  column `d` of the padded table plus the counts against column `d` of (padded table − padded table).  Every table
  entry is a real, so the subtraction vanishes on the table's own rows, the padded table is the table on those rows, and
  labels in `[0, 100)` count nothing else: by `Spec.counts_dot` the value is `∑ l, table (label b s l) d` — which is what
  the reference's gather-and-sum gives (`RefSide.ref_apply`), its zero initial value adding nothing.
-/
import proofs.«402389_j3685081940050_3_alg».proof.Proof.KernelValue
import proofs.«402389_j3685081940050_3_alg».proof.Proof.RefSide

noncomputable section

namespace Cert.Bridge

open Cert.KernelIdeal Cert.KernelIdeal.Gen Idealize.ShloMosaic Idealize.ShloMosaic.ValueIdx Cert.Spec Cert.KernelValue

/-- The reals the table holds in column `d`, by row (zero past the table). -/
def col (tab : S100x128.Idx → EReal) (d : Fin 128) (n : ℕ) : ℝ :=
  if h : n < 100 then (tab (ix2 ⟨n, h⟩ d)).toReal else 0

theorem col_coe (tab : S100x128.Idx → EReal) (hfin : ∀ i, ∃ r : ℝ, tab i = (r : EReal)) (d : Fin 128) (n : ℕ) (h : n < 100) :
    tab (ix2 ⟨n, h⟩ d) = ((col tab d n : ℝ) : EReal) := by
  obtain ⟨r, hr⟩ := hfin (ix2 ⟨n, h⟩ d)
  unfold col
  rw [dif_pos h, hr, EReal.toReal_coe]

/-- The padded table on the table's own rows. -/
theorem padded_apply (tab : S100x128.Idx → EReal) (k : Fin 128) (hk : k.val < 100) (d : Fin 128) :
    padded tab (ix2 k d) = tab (ix2 ⟨k.val, hk⟩ d) := by
  unfold padded
  exact Cert.PadRead.pad_apply _ _ (fun _ => rfl) tab k hk d

/-- Row `4096 b + s` of a `[131072, ·]` array and place `(b, s)` of the `[32, 4096, ·]` array hold the same row-major position. -/
theorem pos_out (b : Fin 32) (s : Fin 4096) (d : Fin 128) (hN : b.val * 4096 + s.val < 131072) :
    (S131072x128.rowMajor (ix2 (⟨b.val * 4096 + s.val, hN⟩ : Fin 131072) d)).val = (S32x4096x128.rowMajor (ix3 b s d)).val := by
  rw [Shape.rowMajor_val_two, Shape.rowMajor_val_three]
  show (b.val * 4096 + s.val) * 128 + d.val = (b.val * 4096 + s.val) * 128 + d.val
  rfl

theorem pos_in (b : Fin 32) (s : Fin 4096) (l : Fin 8) (hN : b.val * 4096 + s.val < 131072) :
    (S32x4096x8.rowMajor (ix3 b s l)).val = (S131072x8.rowMajor (ix2 (⟨b.val * 4096 + s.val, hN⟩ : Fin 131072) l)).val := by
  rw [Shape.rowMajor_val_two, Shape.rowMajor_val_three]
  show (b.val * 4096 + s.val) * 8 + l.val = (b.val * 4096 + s.val) * 8 + l.val
  rfl

/-- The result re-laid to `[32, 4096, 128]`, read at `(b, s, d)`. -/
theorem relay_out (Y : S131072x128.Idx → EReal) (b : Fin 32) (s : Fin 4096) (d : Fin 128) (hN : b.val * 4096 + s.val < 131072) :
    shapeCast S32x4096x128 Y shapeCasts_S131072x128_S32x4096x128 (ix3 b s d) = Y (ix2 (⟨b.val * 4096 + s.val, hN⟩ : Fin 131072) d) :=
  shapeCast_apply (s := S131072x128) (t := S32x4096x128) Y shapeCasts_S131072x128_S32x4096x128 (ix3 b s d)
    (ix2 (⟨b.val * 4096 + s.val, hN⟩ : Fin 131072) d) (pos_out b s d hN)

/-- The labels re-laid to `[131072, 8]`, read at row `4096 b + s`. -/
theorem relay_in (X : S32x4096x8.Idx → BitVec 32) (b : Fin 32) (s : Fin 4096) (l : Fin 8) (hN : b.val * 4096 + s.val < 131072) :
    shapeCast S131072x8 X shapeCasts_S32x4096x8_S131072x8 (ix2 (⟨b.val * 4096 + s.val, hN⟩ : Fin 131072) l) = X (ix3 b s l) :=
  shapeCast_apply (s := S32x4096x8) (t := S131072x8) X shapeCasts_S32x4096x8_S131072x8
    (ix2 (⟨b.val * 4096 + s.val, hN⟩ : Fin 131072) l) (ix3 b s l) (pos_in b s l hN)

/-- The whole-array function at row `N`, column `d`. -/
theorem KG_apply (A0 : S131072x8.Idx → BitVec 32) (H L : S128x128.Idx → EReal) (N : Fin 131072) (d : Fin 128) :
    KG A0 H L (ix2 N d)
      = (∑ k : Fin 128, cnt (fun l : Fin 8 => (A0 (ix2 N l)).toInt) (k.val : ℤ) * H (ix2 k d))
        + (∑ k : Fin 128, cnt (fun l : Fin 8 => (A0 (ix2 N l)).toInt) (k.val : ℤ) * L (ix2 k d)) := rfl

/-- The first table operand is the padded table (a change of float format is the identity at the ideal instance). -/
theorem hiT_apply (tab : S100x128.Idx → EReal) (i : S128x128.Idx) : hiT tab i = padded tab i := by
  unfold hiT
  rw [truncf_apply]

/-- The second table operand is the padded table minus itself. -/
theorem loT_apply (tab : S100x128.Idx → EReal) (i : S128x128.Idx) : loT tab i = padded tab i - padded tab i := by
  unfold loT
  rw [truncf_apply, subf_apply, extf_apply, truncf_apply]

/-- THE BRIDGE. -/
theorem bridge (lab : S32x4096x8.Idx → BitVec 32) (tab : S100x128.Idx → EReal)
    (hfin : ∀ i, ∃ r : ℝ, tab i = (r : EReal)) (hlab : ∀ i, 0 ≤ (lab i).toInt ∧ (lab i).toInt < 100) :
    result lab tab = Cert.ReferenceIdeal.Read.val_main_v7 (F := Ideal) lab tab := by
  funext i
  obtain ⟨b, s, d, rfl⟩ : ∃ (b : Fin 32) (s : Fin 4096) (d : Fin 128), i = ix3 b s d := ⟨i 0, i 1, i 2, eq_ix3 i⟩
  have hN : b.val * 4096 + s.val < 131072 := by have := b.isLt; have := s.isLt; omega
  -- the kernel side
  unfold result
  rw [relay_out _ b s d hN, KG_apply]
  have hl : (fun l : Fin 8 => (relaid lab (ix2 (⟨b.val * 4096 + s.val, hN⟩ : Fin 131072) l)).toInt)
      = fun l : Fin 8 => (lab (ix3 b s l)).toInt := funext fun l => by
    unfold relaid
    rw [relay_in lab b s l hN]
  rw [hl]
  rw [counts_dot (fun l : Fin 8 => (lab (ix3 b s l)).toInt) (fun l => hlab (ix3 b s l))
    (fun k => hiT tab (ix2 k d)) (fun k => loT tab (ix2 k d)) (col tab d)
    (fun k hk => by
      show hiT tab (ix2 k d) = _
      rw [hiT_apply, padded_apply tab k hk d, col_coe tab hfin d k.val hk])
    (fun k hk => by
      show loT tab (ix2 k d) = 0
      rw [loT_apply, padded_apply tab k hk d, col_coe tab hfin d k.val hk, ← EReal.coe_sub, sub_self, EReal.coe_zero])]
  -- the reference side
  rw [Cert.RefSide.ref_apply lab tab hlab b s d, zero_add, coe_sum]
  refine Finset.sum_congr rfl fun l _ => ?_
  exact (col_coe tab hfin d _ _).symm

end Cert.Bridge

end
-- ==== Proof.lean ====
/-
  A multi-label embedding lookup with sum pooling: for every token `(b, s)` and feature `d`,
  `out b s d = ∑ l < 8, table (labels b s l) d`, over labels in `[0, 100)` and a table of finite entries.

  The reference gathers the labelled rows and sums them.  The kernel never gathers: per block of 16384 tokens it counts,
  for each of 128 vocabulary slots, how many of a token's eight labels equal the slot, and multiplies the counts with the
  table zero-padded to 128 rows (`hi`) and with the padded table minus its narrowed self (`lo`, which at exact
  arithmetic is zero on finite entries), adding the two products.  Counting and then weighting the rows by the counts is
  the same as summing the labelled rows — an exchange of two finite sums — provided every label names a real row of the
  table; a label outside `[0, 100)` would meet a zero row in the kernel and a clamped or wrapped row in the reference,
  which is why the precondition states the label range.

  The modules: `Spec` (the exchange of sums, over the reals), `KernelBody` (the body's value at an element),
  `LibScatter` / `PadRead` (the zero-padding read at a row), `KernelValue` (the kernel program's result as one function
  of its arguments), `RefSide` (the reference at an element), `PreRead` (the precondition read back) and `Bridge`
  (the two functions are one).  The three frames are the generated ones; nothing of the idealization was rewritten, so
  the preservation claim is trivial.
-/
import proofs.«402389_j3685081940050_3_alg».proof.Defs
import proofs.«402389_j3685081940050_3_alg».proof.Proof.Gen.Kernel
import proofs.«402389_j3685081940050_3_alg».proof.Proof.Gen.Kernel.Skeleton
import proofs.«402389_j3685081940050_3_alg».proof.Proof.Gen.Kernel.Launch
import proofs.«402389_j3685081940050_3_alg».proof.Proof.Gen.Kernel.Points
import proofs.«402389_j3685081940050_3_alg».proof.Proof.Gen.Kernel.Frame
import proofs.«402389_j3685081940050_3_alg».proof.Proof.Gen.KernelIdeal
import proofs.«402389_j3685081940050_3_alg».proof.Proof.Gen.KernelIdeal.Skeleton
import proofs.«402389_j3685081940050_3_alg».proof.Proof.Gen.KernelIdeal.Launch
import proofs.«402389_j3685081940050_3_alg».proof.Proof.Gen.KernelIdeal.Points
import proofs.«402389_j3685081940050_3_alg».proof.Proof.Gen.KernelIdeal.Frame
import proofs.«402389_j3685081940050_3_alg».proof.Proof.Gen.ReferenceIdeal
import proofs.«402389_j3685081940050_3_alg».proof.Proof.Gen.ReferenceIdeal.Run
import proofs.«402389_j3685081940050_3_alg».proof.Proof.Gen.ReferenceIdeal.Read
import proofs.«402389_j3685081940050_3_alg».proof.Proof.Gen.Pre_finite_inputs
import proofs.«402389_j3685081940050_3_alg».proof.Proof.PreRead
import proofs.«402389_j3685081940050_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end at one function of the arguments: the kernel's run holds `KernelValue.result`, the reference's
    its last stage, and under the precondition — finite table, labels in range — the two agree (`Bridge.bridge`). -/
theorem algebraic : Cert.algebraic_KernelIdeal_ReferenceIdeal := by
  intro m ρ m' ρ' hpre hagree
  refine ⟨fun c => Cert.KernelValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2, Cert.ReferenceIdeal.Read.val_main_v7_eq]
  obtain ⟨hfin, hlab⟩ := Cert.PreRead.decode _ _ (hpre c)
  exact (Cert.Bridge.bridge _ _ hfin hlab).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
